-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S_ : Shape := ⟨0, ![]⟩
abbrev S8192 : Shape := ⟨1, ![8192]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x64_S8192x64_S8192x8192_1_1_0_0_n_n_wf : DotDims.WF S8192x64 S8192x64 S8192x8192 [1] [1] [0] [0] [] []

variable [Facts]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf
def fn {F : FTy → Type} [FloatOps F] (main_arg0 : FVec F S8192x64 .f32) : IVec S_ 1 :=
  let main_v0 : FVec F S8192x8192 .f32 := (fun l r => Host.dotGeneral dot_S8192x64_S8192x64_S8192x8192_1_1_0_0_n_n none l r) main_arg0 main_arg0
  let main_v1 : FVec F S8192x64 .f32 := Host.absf main_arg0
  let main_cst : FVec F S_ .f32 := constant S_ .f32 0x7F800000#32
  let main_v2 : FVec F S8192x64 .f32 := broadcastInDim S8192x64 ![] bcast_S_S8192x64 main_cst
  let main_v3 : IVec S8192x64 1 := cmpf .olt main_v1 main_v2
  let main_c : IVec S_ 1 := constantI S_ 1 1#1
  let main_v4 : IVec S_ 1 := (fun x v => Host.reduce IntOp.andi x v reducesTo_S8192x64_S_d0_1 h_S_) main_v3 main_c
  let main_cst_0 : FVec F S_ .f32 := constant S_ .f32 0x00000000#32
  let main_v5 : FVec F S8192 .f32 := (fun x v => Host.reduceAdd x v reducesTo_S8192x8192_S8192_d1 h_S_) main_v0 main_cst_0
  let main_cst_1 : FVec F S_ .f32 := constant S_ .f32 0x00000000#32
  let main_v6 : FVec F S8192 .f32 := broadcastInDim S8192 ![] bcast_S_S8192 main_cst_1
  let main_v7 : IVec S8192 1 := cmpf .une main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v4 main_v8
  main_v9
-- ==== Kernel.lean ====
abbrev S8192x64 : Shape := ⟨2, ![8192, 64]⟩
abbrev S64x64 : Shape := ⟨2, ![64, 64]⟩
abbrev S1x64 : Shape := ⟨2, ![1, 64]⟩
abbrev S64 : Shape := ⟨1, ![64]⟩
abbrev S1024x64 : Shape := ⟨2, ![1024, 64]⟩
abbrev S1024 : Shape := ⟨1, ![1024]⟩
abbrev S1024x1 : Shape := ⟨2, ![1024, 1]⟩

abbrev nBuf : Space → Nat
  | .hbm => 4
  | .vmem => 9
  | .smem => 0
  | _ => 0

abbrev bufTy : (tb : Table) → Fin (tcTables nBuf tb) → BufTy
  | .hbm, ⟨0, _⟩ => ⟨S8192x64, .f32⟩
  | .hbm, ⟨1, _⟩ => ⟨S64x64, .f32⟩
  | .hbm, ⟨2, _⟩ => ⟨S1x64, .f32⟩
  | .hbm, ⟨3, _⟩ => ⟨S8192x64, .f32⟩
  | .local _ .vmem, ⟨0, _⟩ => ⟨S8192x64, .f32⟩
  | .local _ .vmem, ⟨1, _⟩ => ⟨S64x64, .f32⟩
  | .local _ .vmem, ⟨2, _⟩ => ⟨S1x64, .f32⟩
  | .local _ .vmem, ⟨3, _⟩ => ⟨S1024x64, .f32⟩
  | .local _ .vmem, ⟨4, _⟩ => ⟨S1024x64, .f32⟩
  | .local _ .vmem, ⟨5, _⟩ => ⟨S64x64, .f32⟩
  | .local _ .vmem, ⟨6, _⟩ => ⟨S1x64, .f32⟩
  | .local _ .vmem, ⟨7, _⟩ => ⟨S1024x64, .f32⟩
  | .local _ .vmem, ⟨8, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  reduces_S8192x64_S64 : S8192x64.Reduces [0] S64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S1024x64_S1024x64_0_0 : ∀ a, (![0, 0] : Fin 2 → Nat) a + S1024x64.size a ≤ S1024x64.size a
  h_S1024x64 : 0 < S1024x64.numel
  shapeCasts_S64x64_S64x64 : S64x64.ShapeCasts S64x64
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  dot_S8192x64_S8192x64_S64x64_0_0_1_1_n_n_wf : DotDims.WF S8192x64 S8192x64 S64x64 [0] [0] [1] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)

variable [Facts₀]

def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S64x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 8
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x8192, .f32⟩
  | .hbm, ⟨6, _⟩ => ⟨S8192x8192, .f32⟩
  | .hbm, ⟨7, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S8192x64_S8192x8192_1_1_0_0_n_n_wf : DotDims.WF S8192x64 S8192x64 S8192x8192 [1] [1] [0] [0] [] []
  dot_S8192x8192_S8192x64_S8192x64_1_0_0_1_n_n_wf : DotDims.WF S8192x8192 S8192x64 S8192x64 [1] [0] [0] [1] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KernelPayload.lean ====
/-
  The two kernel bodies' stored values read at an index, at the extended reals: the first body stores the 64 × 64 matrix of
  column inner products and the row of column sums of its block; the second stores, per row of its block, the row times
  a 64 × 64 matrix, over the row's inner product with a row vector.
-/
import proofs.«115789_j63376537420540_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- In the first product the left operand's kept axis reads the result's first coordinate. -/
theorem lhs_gram_1 (i : S64x64.Idx) (q : dot_S8192x64_S8192x64_S64x64_0_0_1_1_n_n.contr.Idx) :
    (dot_S8192x64_S8192x64_S64x64_0_0_1_1_n_n.lhsIdx i q 1).val = (i 0).val := by
  unfold DotDims.lhsIdx
  rw [dif_neg (show ¬(1 : Fin S8192x64.rank) ∈ dot_S8192x64_S8192x64_S64x64_0_0_1_1_n_n.lhsBatch by decide), dif_pos (show (1 : Fin S8192x64.rank) ∈ dot_S8192x64_S8192x64_S64x64_0_0_1_1_n_n.lhsNonContracting by decide)]
  rfl
/-- Its contracted axis reads the contraction coordinate. -/
theorem lhs_gram_0 (i : S64x64.Idx) (q : dot_S8192x64_S8192x64_S64x64_0_0_1_1_n_n.contr.Idx) :
    (dot_S8192x64_S8192x64_S64x64_0_0_1_1_n_n.lhsIdx i q 0).val = (q ⟨0, by decide⟩).val :=
  dot_S8192x64_S8192x64_S64x64_0_0_1_1_n_n.lhsIdx_val_of_single rfl i q
/-- The right operand's kept axis reads the result's second coordinate. -/
theorem rhs_gram_1 (i : S64x64.Idx) (q : dot_S8192x64_S8192x64_S64x64_0_0_1_1_n_n.contr.Idx) :
    (dot_S8192x64_S8192x64_S64x64_0_0_1_1_n_n.rhsIdx i q 1).val = (i 1).val := by
  unfold DotDims.rhsIdx
  rw [dif_neg (show ¬(1 : Fin S8192x64.rank) ∈ dot_S8192x64_S8192x64_S64x64_0_0_1_1_n_n.rhsBatch by decide), dif_pos (show (1 : Fin S8192x64.rank) ∈ dot_S8192x64_S8192x64_S64x64_0_0_1_1_n_n.rhsNonContracting by decide)]
  rfl
/-- Its contracted axis reads the contraction coordinate. -/
theorem rhs_gram_0 (i : S64x64.Idx) (q : dot_S8192x64_S8192x64_S64x64_0_0_1_1_n_n.contr.Idx) :
    (dot_S8192x64_S8192x64_S64x64_0_0_1_1_n_n.rhsIdx i q 0).val = (q ⟨0, by decide⟩).val :=
  dot_S8192x64_S8192x64_S64x64_0_0_1_1_n_n.rhsIdx_val_of_single rfl i q

/-- The first product at an index, over variables: the sum over the rows of the two columns' products. -/
theorem gram_matmul_apply (a b : FVec Ideal S8192x64 .bf16) (d e : Fin 64) :
    matmul dot_S8192x64_S8192x64_S64x64_0_0_1_1_n_n none a b (constant (F := Ideal) S64x64 .f32 0x00000000#32) (ix2 d e)
      = ∑ n : Fin 8192, a (ix2 n d) * b (ix2 n e) := by
  simp only [matmul]
  rw [Ideal.matmul_constant_zero_apply, ← Equiv.sum_comp (ValueIdx.contrEquiv1 dot_S8192x64_S8192x64_S64x64_0_0_1_1_n_n 8192 rfl rfl).symm]
  refine Finset.sum_congr rfl fun k _ => ?_
  have hk := ValueIdx.contrEquiv1_symm_val dot_S8192x64_S8192x64_S64x64_0_0_1_1_n_n 8192 rfl rfl k
  have el : dot_S8192x64_S8192x64_S64x64_0_0_1_1_n_n.lhsIdx (ix2 d e) ((ValueIdx.contrEquiv1 dot_S8192x64_S8192x64_S64x64_0_0_1_1_n_n 8192 rfl rfl).symm k) = ix2 k d := funext fun a => Fin.ext (by
    match a with
    | ⟨0, _⟩ => exact (lhs_gram_0 _ _).trans hk
    | ⟨1, _⟩ => exact lhs_gram_1 _ _)
  have er : dot_S8192x64_S8192x64_S64x64_0_0_1_1_n_n.rhsIdx (ix2 d e) ((ValueIdx.contrEquiv1 dot_S8192x64_S8192x64_S64x64_0_0_1_1_n_n 8192 rfl rfl).symm k) = ix2 k e := funext fun a => Fin.ext (by
    match a with
    | ⟨0, _⟩ => exact (rhs_gram_0 _ _).trans hk
    | ⟨1, _⟩ => exact rhs_gram_1 _ _)
  rw [el, er]

/-- The first body's matrix: entry (d, e) is the sum over the block's rows of column d times column e. -/
theorem gram_apply (x : Vec Ideal S8192x64 .f32) (d e : Fin 64) :
    k0_pay1 (F := Ideal) x (ix2 d e) = ∑ n : Fin 8192, x (ix2 n d) * x (ix2 n e) := by
  unfold k0_pay1
  exact gram_matmul_apply _ _ d e

/-- A sum over the rows of a block, stored as a one-row matrix: entry e is the sum of column e. -/
theorem colsum_read (x : FVec Ideal S8192x64 .f32) (z : Fin 1) (e : Fin 64) :
    shapeCast S1x64 (multiReduction (F := Ideal) .add [0] S64 x 0x00000000#32 reduces_S8192x64_S64 (.inl rfl) rfl) shapeCasts_S64_S1x64 (ix2 z e)
      = ∑ n : Fin 8192, x (ix2 n e) := by
  refine (shapeCast_a_1a_apply _ shapeCasts_S64_S1x64 z e).trans ?_
  refine (Ideal.multiReduction_add_single (a := (0 : Fin S8192x64.rank)) x _ reduces_S8192x64_S64 _ _ (ix1 e)).trans ?_
  refine Finset.sum_congr rfl fun k _ => ?_
  exact congrArg x (funext fun b => Fin.ext (by match b with | ⟨0, _⟩ => rfl | ⟨1, _⟩ => rfl))

/-- The first body's row: entry e is the sum of column e. -/
theorem colsum_apply (x : Vec Ideal S8192x64 .f32) (z : Fin 1) (e : Fin 64) :
    k0_pay2 (F := Ideal) x (ix2 z e) = ∑ n : Fin 8192, x (ix2 n e) := by
  unfold k0_pay2
  exact colsum_read x z e

/-- In the second product the left operand's kept axis reads the result's first coordinate. -/
theorem lhs_out_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
/-- Its contracted axis reads the contraction coordinate. -/
theorem lhs_out_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
/-- The right operand's contracted axis reads the contraction coordinate. -/
theorem rhs_out_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
/-- Its kept axis reads the result's second coordinate. -/
theorem rhs_out_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The second product at an index, over variables: row r of the left operand times column e of the right. -/
theorem out_matmul_apply (a : FVec Ideal S1024x64 .bf16) (b : FVec Ideal S64x64 .bf16) (r : Fin 1024) (e : Fin 64) :
    matmul dot_S1024x64_S64x64_S1024x64_1_0_0_1_n_n none a b (constant (F := Ideal) S1024x64 .f32 0x00000000#32) (ix2 r e)
      = ∑ d : Fin 64, a (ix2 r d) * b (ix2 d e) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 r e) ((ValueIdx.contrEquiv1 dot_S1024x64_S64x64_S1024x64_1_0_0_1_n_n 64 rfl rfl).symm k) = ix2 r k := funext fun a => Fin.ext (by
    match a with
    | ⟨0, _⟩ => exact lhs_out_0 _ _
    | ⟨1, _⟩ => exact (lhs_out_1 _ _).trans hk)
  have er : dot_S1024x64_S64x64_S1024x64_1_0_0_1_n_n.rhsIdx (ix2 r e) ((ValueIdx.contrEquiv1 dot_S1024x64_S64x64_S1024x64_1_0_0_1_n_n 64 rfl rfl).symm k) = ix2 k e := funext fun a => Fin.ext (by
    match a with
    | ⟨0, _⟩ => exact (rhs_out_0 _ _).trans hk
    | ⟨1, _⟩ => exact rhs_out_1 _ _)
  rw [el, er]

/-- A row sum kept as a column and spread back over the row: at (r, e) it is the sum of row r. -/
theorem rowsum_read (y : FVec Ideal S1024x64 .f32) (r : Fin 1024) (e : Fin 64) :
    broadcastTo S1024x64
        (shapeCast S1024x1 (multiReduction (F := Ideal) .add [1] S1024 y 0x00000000#32 reduces_S1024x64_S1024 (.inl rfl) rfl) shapeCasts_S1024_S1024x1)
        broadcasts_S1024x1_S1024x64 (ix2 r e)
      = ∑ d : Fin 64, y (ix2 r d) := by
  refine (broadcastTo_apply _ broadcasts_S1024x1_S1024x64 (ix2 r e) (ix2 r (0 : Fin 1)) fun a => ?_).trans ?_
  · match a with
    | ⟨0, _⟩ =>
      show r.val = if (1024 : Nat) = 1 then 0 else r.val
      rw [if_neg (by decide)]
    | ⟨1, _⟩ =>
      show 0 = if (1 : Nat) = 1 then 0 else e.val
      rw [if_pos rfl]
  refine (shapeCast_apply _ shapeCasts_S1024_S1024x1 (ix2 r (0 : Fin 1)) (ix1 r) ?_).trans ?_
  · rw [Shape.rowMajor_val_two, Shape.rowMajor_val_one]
    show r.val = r.val * 1 + 0
    omega
  refine (Ideal.multiReduction_add_single (a := (1 : Fin S1024x64.rank)) y _ reduces_S1024x64_S1024 _ _ (ix1 r)).trans ?_
  refine Finset.sum_congr rfl fun k _ => ?_
  exact congrArg y (funext fun b => Fin.ext (by match b with | ⟨0, _⟩ => rfl | ⟨1, _⟩ => rfl))

/-- The second body: entry (r, e) is row r times column e of the matrix, over row r against the row vector. -/
theorem out_apply (x : Vec Ideal S1024x64 .f32) (g : Vec Ideal S64x64 .f32) (s : Vec Ideal S1x64 .f32) (r : Fin 1024) (e : Fin 64) :
    k1_pay1 (F := Ideal) x g s (ix2 r e)
      = Ideal.div (∑ d : Fin 64, x (ix2 r d) * g (ix2 d e)) (∑ d : Fin 64, x (ix2 r d) * s (ix2 (0 : Fin 1) d)) := by
  unfold k1_pay1
  refine (divf_apply _ _ (ix2 r e)).trans ?_
  congr 1
  · refine (out_matmul_apply _ _ r e).trans ?_
    rw [shapeCast_self]
    rfl
  · refine (rowsum_read _ r e).trans ?_
    refine Finset.sum_congr rfl fun d _ => ?_
    refine (mulf_apply _ _ (ix2 r d)).trans ?_
    rw [broadcastTo_1b_ab_apply, shapeCast_self]

end Cert.KernelIdeal.Payload

end
-- ==== Proof.Spec.lean ====
/-
  The mathematics both programs compute, over an array `a` of extended reals indexed by a row `i < 8192` and a
  column `d < 64`.

  The reference forms the row-by-row inner products `dotE a i j = ∑ d, a[i,d]·a[j,d]`, divides each by its row's sum
  `rowsumE a i = 0 + ∑ j, dotE a i j`, and multiplies the quotients into the array again:
  `outR a i e = ∑ j, (dotE a i j / rowsumE a i) · a[j,e]`.

  The kernel never forms the 8192 × 8192 products. It forms the 64 × 64 matrix `gramE a d e = ∑ n, a[n,d]·a[n,e]` and
  the column sums `colsumE a d = ∑ n, a[n,d]`, and then per row
  `outK a i e = (∑ d, a[i,d]·gramE a d e) / (∑ d, a[i,d]·colsumE a d)`.

  Where every entry is a real number the two numerators are one double sum taken in two orders, and so are the two
  denominators; where, besides, the row sum is not zero, dividing a sum by it is dividing each term by it. Both facts
  are facts about real numbers: at an infinite entry, or at a zero row sum, the two sides are different extended reals.
-/
import Idealize.ShloMosaic.PureOps.Ideal
import Idealize.ShloMosaic.PureOps.Ideal.Laws
import Idealize.ShloMosaic.Lib.ValueIdx

noncomputable section

namespace Cert.RowNormalize

open Idealize.ShloMosaic Idealize.ShloMosaic.ValueIdx

/-- The array's shape: 8192 rows of 64 entries. -/
abbrev SA : Shape := ⟨2, ![8192, 64]⟩

/-- Two rows' inner product. -/
def dotE (a : SA.Idx → EReal) (i j : Fin 8192) : EReal := ∑ d : Fin 64, a (ix2 i d) * a (ix2 j d)

/-- The sum of row `i`'s inner products with every row, from the reference's initial value `0`. -/
def rowsumE (a : SA.Idx → EReal) (i : Fin 8192) : EReal := 0 + ∑ j : Fin 8192, dotE a i j

/-- The reference's result: each inner product over its row's sum, times the array. -/
def outR (a : SA.Idx → EReal) (i : Fin 8192) (e : Fin 64) : EReal :=
  ∑ j : Fin 8192, Ideal.div (dotE a i j) (rowsumE a i) * a (ix2 j e)

/-- The 64 × 64 matrix of the columns' inner products. -/
def gramE (a : SA.Idx → EReal) (d e : Fin 64) : EReal := ∑ n : Fin 8192, a (ix2 n d) * a (ix2 n e)

/-- The column sums. -/
def colsumE (a : SA.Idx → EReal) (d : Fin 64) : EReal := ∑ n : Fin 8192, a (ix2 n d)

/-- The kernel's numerator: row `i` times the matrix of column products. -/
def numE (a : SA.Idx → EReal) (i : Fin 8192) (e : Fin 64) : EReal := ∑ d : Fin 64, a (ix2 i d) * gramE a d e

/-- The kernel's denominator: row `i` against the column sums. -/
def denE (a : SA.Idx → EReal) (i : Fin 8192) : EReal := ∑ d : Fin 64, a (ix2 i d) * colsumE a d

/-- The kernel's result. -/
def outK (a : SA.Idx → EReal) (i : Fin 8192) (e : Fin 64) : EReal := Ideal.div (numE a i e) (denE a i)

end Cert.RowNormalize

end
-- ==== Proof.KernelArrays.lean ====
/-
  What the kernel's two launches leave in their result arrays, at the extended reals.

  The first launch has one grid point, and each of its three windows is the whole of its array: the point's write-backs
  are the 64 × 64 matrix of the argument's column inner products and the row of its column sums. The second launch has
  eight points; point t reads rows 1024·t … 1024·t + 1023 of the argument, the whole matrix and the whole row, and
  writes the same rows of the result: row i of the block times the matrix, over row i against the column sums. The eight
  blocks tile the result, row r lying in block r / 1024, so the result array ends at the kernel's quotient entry by entry.
-/
import proofs.«115789_j63376537420540_1_alg».proof.Proof.Gen.KernelIdeal.Frame
import proofs.«115789_j63376537420540_1_alg».proof.Proof.KernelPayload
import proofs.«115789_j63376537420540_1_alg».proof.Proof.Spec
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.RowNormalize
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The first launch: one point, every window the whole of its array -/

/-- Every block index of the first launch is zero. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The input block of the first launch is the argument array. -/
theorem iblk0_0 (c : Dev nD) (t : Fin cfg0.N) (y : S8192x64.Idx) :
    iblk0 (V0 m ρ) c 0 t y = m ((c : Thread nD τ).loc main_arg0) y := by
  show m ((c : Thread nD τ).loc main_arg0) (((cfg0.win 0).blk t).view.emb y) = m ((c : Thread nD τ).loc main_arg0) y
  obtain ⟨e0, e1, -⟩ := idx0 t
  refine congrArg _ (funext fun a => Fin.ext ?_)
  match a with
  | ⟨0, _⟩ => show win0_0.index t (0 : Fin 2) * 8192 + 1 * (y 0).val = (y 0).val; omega
  | ⟨1, _⟩ => show win0_0.index t (1 : Fin 2) * 64 + 1 * (y 1).val = (y 1).val; omega

/-- The argument array, at its literal type. -/
abbrev argArr (c : Dev nD) : S8192x64.Idx → EReal := m ((c : Thread nD τ).loc main_arg0)

/-- The matrix of column inner products, as an array. -/
abbrev gramArr (c : Dev nD) : S64x64.Idx → EReal := fun idx => gramE (m ((c : Thread nD τ).loc main_arg0)) (idx 0) (idx 1)
/-- The column sums, as a one-row array. -/
abbrev colsumArr (c : Dev nD) : S1x64.Idx → EReal := fun idx => colsumE (m ((c : Thread nD τ).loc main_arg0)) (idx 1)

theorem flushed0_1 (c : Dev nD) (t : Fin cfg0.N) :
    (dat0 (V0 m ρ) c).flushed 1 t = ((cfg0.win 1).blk t).view.read (Elt Ideal) (gramArr m c) := by
  show (cfg0.win 1).cut (grid0.coords t) ((dat0 (V0 m ρ) c).after 1 t) = _
  rw [after0_1]
  unfold out0_1
  rw [View.canon_unit_zero hz]
  simp only [View.ld_unit_zero (S := S8192x64) hz]
  have hb : iblk0 (V0 m ρ) c 0 t = m ((c : Thread nD τ).loc main_arg0) := funext (iblk0_0 m ρ c t)
  rw [hb]
  funext j
  show k0_pay1 (F := Ideal) (m ((c : Thread nD τ).loc main_arg0)) j = gramE (m ((c : Thread nD τ).loc main_arg0)) ((((cfg0.win 1).blk t).view.emb j) 0) ((((cfg0.win 1).blk t).view.emb j) 1)
  obtain ⟨-, -, e0, e1, -⟩ := idx0 t
  have h0 : (((cfg0.win 1).blk t).view.emb j) 0 = j 0 := Fin.ext (by show win0_1.index t (0 : Fin 2) * 64 + 1 * (j 0).val = (j 0).val; omega)
  have h1 : (((cfg0.win 1).blk t).view.emb j) 1 = j 1 := Fin.ext (by show win0_1.index t (1 : Fin 2) * 64 + 1 * (j 1).val = (j 1).val; omega)
  rw [h0, h1]
  exact (congrArg _ (eq_ix2 j)).trans (Payload.gram_apply _ (j 0) (j 1))

theorem flushed0_2 (c : Dev nD) (t : Fin cfg0.N) :
    (dat0 (V0 m ρ) c).flushed 2 t = ((cfg0.win 2).blk t).view.read (Elt Ideal) (colsumArr m c) := by
  show (cfg0.win 2).cut (grid0.coords t) ((dat0 (V0 m ρ) c).after 2 t) = _
  rw [after0_2]
  unfold out0_2
  rw [View.canon_unit_zero hz]
  simp only [View.ld_unit_zero (S := S8192x64) hz]
  have hb : iblk0 (V0 m ρ) c 0 t = m ((c : Thread nD τ).loc main_arg0) := funext (iblk0_0 m ρ c t)
  rw [hb]
  funext j
  show k0_pay2 (F := Ideal) (m ((c : Thread nD τ).loc main_arg0)) j = colsumE (m ((c : Thread nD τ).loc main_arg0)) ((((cfg0.win 2).blk t).view.emb j) 1)
  obtain ⟨-, -, -, -, e0, e1⟩ := idx0 t
  have h1 : (((cfg0.win 2).blk t).view.emb j) 1 = j 1 := Fin.ext (by show win0_2.index t (1 : Fin 2) * 64 + 1 * (j 1).val = (j 1).val; omega)
  rw [h1]
  exact (congrArg _ (eq_ix2 j)).trans (Payload.colsum_apply _ (j 0) (j 1))

/-- An index lies in a point's block of a result window exactly when each coordinate lies in the block's range. -/
theorem mem_blk0_1 (t : Fin cfg0.N) (i : S64x64.Idx) :
    i ∈ ((cfg0.win 1).blk t).view.set ↔ ∀ a : Fin 2, win0_1.index t a * S64x64.size a ≤ (i a).val ∧ (i a).val < win0_1.index t a * S64x64.size a + S64x64.size a := by
  show i ∈ ((View.whole main_v0_0).slice (win0_1.rect t)).set ↔ _
  rw [View.set_slice_whole, Rect.mem_set_unit]
  exact Iff.rfl
theorem mem_blk0_2 (t : Fin cfg0.N) (i : S1x64.Idx) :
    i ∈ ((cfg0.win 2).blk t).view.set ↔ ∀ a : Fin 2, win0_2.index t a * S1x64.size a ≤ (i a).val ∧ (i a).val < win0_2.index t a * S1x64.size a + S1x64.size a := by
  show i ∈ ((View.whole main_v0_1).slice (win0_2.rect t)).set ↔ _
  rw [View.set_slice_whole, Rect.mem_set_unit]
  exact Iff.rfl

/-- The one point's block of each result window is its whole array. -/
theorem cover0_1 (i : S64x64.Idx) : ∃ t : Fin cfg0.N, (cfg0.win 1).flush t = true ∧ i ∈ ((cfg0.win 1).blk t).view.set := by
  have t : Fin cfg0.N := ⟨0, by decide⟩
  refine ⟨t, flush0_1 t, ?_⟩
  rw [mem_blk0_1]
  obtain ⟨-, -, e0, e1, -⟩ := idx0 t
  intro a
  match a with
  | ⟨0, _⟩ => show win0_1.index t (0 : Fin 2) * 64 ≤ (i 0).val ∧ (i 0).val < win0_1.index t (0 : Fin 2) * 64 + 64; have hi : (i 0).val < 64 := (i 0).isLt; omega
  | ⟨1, _⟩ => show win0_1.index t (1 : Fin 2) * 64 ≤ (i 1).val ∧ (i 1).val < win0_1.index t (1 : Fin 2) * 64 + 64; have hi : (i 1).val < 64 := (i 1).isLt; omega

theorem cover0_2 (i : S1x64.Idx) : ∃ t : Fin cfg0.N, (cfg0.win 2).flush t = true ∧ i ∈ ((cfg0.win 2).blk t).view.set := by
  have t : Fin cfg0.N := ⟨0, by decide⟩
  refine ⟨t, flush0_2 t, ?_⟩
  rw [mem_blk0_2]
  obtain ⟨-, -, -, -, e0, e1⟩ := idx0 t
  intro a
  match a with
  | ⟨0, _⟩ => show win0_2.index t (0 : Fin 2) * 1 ≤ (i 0).val ∧ (i 0).val < win0_2.index t (0 : Fin 2) * 1 + 1; have hi : (i 0).val < 1 := (i 0).isLt; omega
  | ⟨1, _⟩ => show win0_2.index t (1 : Fin 2) * 64 ≤ (i 1).val ∧ (i 1).val < win0_2.index t (1 : Fin 2) * 64 + 64; have hi : (i 1).val < 64 := (i 1).isLt; omega

/-- After the first launch its two result arrays hold the matrix of column products and the column sums. -/
theorem gram_final (c : Dev nD) : (dat0 (V0 m ρ) c).arrAt 1 cfg0.N = gramArr m c :=
  (dat0 (V0 m ρ) c).arrAt_eq_of_cover 1 (gramArr m c) (fun t _ => flushed0_1 m ρ c t) cover0_1
theorem colsum_final (c : Dev nD) : (dat0 (V0 m ρ) c).arrAt 2 cfg0.N = colsumArr m c :=
  (dat0 (V0 m ρ) c).arrAt_eq_of_cover 2 (colsumArr m c) (fun t _ => flushed0_2 m ρ c t) cover0_2

/-! ## What the second launch finds -/

theorem V1_arg (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_gram (c : Dev nD) : V1 m ρ c main_v0_0 = gramArr m c := (W1_arr m ρ c 1).trans (gram_final m ρ c)
theorem V1_colsum (c : Dev nD) : V1 m ρ c main_v0_1 = colsumArr m c := (W1_arr m ρ c 2).trans (colsum_final m ρ c)

/-! ## The second launch: eight points, each a block of 1024 rows -/

/-- The second launch's block indices: the row windows move with the point, the others stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The kernel's result, as an array. -/
abbrev outArr (c : Dev nD) : S8192x64.Idx → EReal := fun idx => outK (m ((c : Thread nD τ).loc main_arg0)) (idx 0) (idx 1)

theorem iblk1_0 (c : Dev nD) (t : Fin cfg1.N) :
    iblk1 (V1 m ρ) c 0 t = ((cfg1.win 0).blk t).view.read (Elt Ideal) (m ((c : Thread nD τ).loc main_arg0)) := by
  show ((cfg1.win 0).blk t).view.read (Elt Ideal) (V1 m ρ c main_arg0) = _
  rw [V1_arg]
theorem iblk1_1 (c : Dev nD) (t : Fin cfg1.N) :
    iblk1 (V1 m ρ) c 1 t = ((cfg1.win 1).blk t).view.read (Elt Ideal) (gramArr m c) := by
  show ((cfg1.win 1).blk t).view.read (Elt Ideal) (V1 m ρ c main_v0_0) = _
  rw [V1_gram]
theorem iblk1_2 (c : Dev nD) (t : Fin cfg1.N) :
    iblk1 (V1 m ρ) c 2 t = ((cfg1.win 2).blk t).view.read (Elt Ideal) (colsumArr m c) := by
  show ((cfg1.win 2).blk t).view.read (Elt Ideal) (V1 m ρ c main_v0_1) = _
  rw [V1_colsum]

theorem flushed1_3 (c : Dev nD) (t : Fin cfg1.N) :
    (dat1 (V1 m ρ) c).flushed 3 t = ((cfg1.win 3).blk t).view.read (Elt Ideal) (outArr m c) := by
  show (cfg1.win 3).cut (grid1.coords t) ((dat1 (V1 m ρ) c).after 3 t) = _
  rw [after1_3]
  unfold out1_3
  rw [View.canon_unit_zero hz]
  simp only [View.ld_unit_zero (S := S1024x64) hz, View.ld_unit_zero (S := S64x64) hz, View.ld_unit_zero (S := S1x64) hz]
  rw [iblk1_0, iblk1_1, iblk1_2]
  funext j
  obtain ⟨e00, e01, e10, e11, e20, e21, e30, e31⟩ := idx1 t
  have hj0 : (j 0).val < 1024 := (j 0).isLt
  have hj1 : (j 1).val < 64 := (j 1).isLt
  show k1_pay1 (F := Ideal) (View.read (Elt Ideal) ((cfg1.win 0).blk t).view (m ((c : Thread nD τ).loc main_arg0)))
        (View.read (Elt Ideal) ((cfg1.win 1).blk t).view (gramArr m c))
        (View.read (Elt Ideal) ((cfg1.win 2).blk t).view (colsumArr m c)) j
      = outK (m ((c : Thread nD τ).loc main_arg0)) ((((cfg1.win 3).blk t).view.emb j) 0) ((((cfg1.win 3).blk t).view.emb j) 1)
  refine ((congrArg _ (eq_ix2 j)).trans (Payload.out_apply _ _ _ (j 0) (j 1))).trans ?_
  have he : (((cfg1.win 3).blk t).view.emb j) 1 = j 1 :=
    Fin.ext (by show win1_3.index t (1 : Fin 2) * 64 + 1 * (j 1).val = (j 1).val; omega)
  rw [he]
  unfold outK numE denE
  congr 1
  · refine Finset.sum_congr rfl fun d _ => ?_
    have hd : d.val < 64 := d.isLt
    have hx : ((cfg1.win 0).blk t).view.emb (ix2 (j 0) d) = ix2 ((((cfg1.win 3).blk t).view.emb j) 0) d := by
      funext a; apply Fin.ext
      match a with
      | ⟨0, _⟩ => show win1_0.index t (0 : Fin 2) * 1024 + 1 * (j 0).val = win1_3.index t (0 : Fin 2) * 1024 + 1 * (j 0).val; omega
      | ⟨1, _⟩ => show win1_0.index t (1 : Fin 2) * 64 + 1 * d.val = d.val; omega
    have hg0 : (((cfg1.win 1).blk t).view.emb (ix2 d (j 1))) 0 = d :=
      Fin.ext (by show win1_1.index t (0 : Fin 2) * 64 + 1 * d.val = d.val; omega)
    have hg1 : (((cfg1.win 1).blk t).view.emb (ix2 d (j 1))) 1 = j 1 :=
      Fin.ext (by show win1_1.index t (1 : Fin 2) * 64 + 1 * (j 1).val = (j 1).val; omega)
    show argArr m c (((cfg1.win 0).blk t).view.emb (ix2 (j 0) d))
        * gramE (argArr m c) ((((cfg1.win 1).blk t).view.emb (ix2 d (j 1))) 0) ((((cfg1.win 1).blk t).view.emb (ix2 d (j 1))) 1) = _
    rw [hx, hg0, hg1]
    rfl
  · refine Finset.sum_congr rfl fun d _ => ?_
    have hd : d.val < 64 := d.isLt
    have hx : ((cfg1.win 0).blk t).view.emb (ix2 (j 0) d) = ix2 ((((cfg1.win 3).blk t).view.emb j) 0) d := by
      funext a; apply Fin.ext
      match a with
      | ⟨0, _⟩ => show win1_0.index t (0 : Fin 2) * 1024 + 1 * (j 0).val = win1_3.index t (0 : Fin 2) * 1024 + 1 * (j 0).val; omega
      | ⟨1, _⟩ => show win1_0.index t (1 : Fin 2) * 64 + 1 * d.val = d.val; omega
    have hs1 : (((cfg1.win 2).blk t).view.emb (ix2 (0 : Fin 1) d)) 1 = d :=
      Fin.ext (by show win1_2.index t (1 : Fin 2) * 64 + 1 * d.val = d.val; omega)
    show argArr m c (((cfg1.win 0).blk t).view.emb (ix2 (j 0) d))
        * colsumE (argArr m c) ((((cfg1.win 2).blk t).view.emb (ix2 (0 : Fin 1) d)) 1) = _
    rw [hx, hs1]
    rfl

/-- An index lies in a point's block of the result window exactly when each coordinate lies in the block's range. -/
theorem mem_blk1_3 (t : Fin cfg1.N) (i : S8192x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole main_v1).slice (win1_3.rect t)).set ↔ _
  rw [View.set_slice_whole, Rect.mem_set_unit]
  exact Iff.rfl

/-- Row `r` of the result lies in the block of point `r / 1024`. -/
theorem cover1_3 (i : S8192x64.Idx) : ∃ t : Fin cfg1.N, (cfg1.win 3).flush t = true ∧ i ∈ ((cfg1.win 3).blk t).view.set := by
  have hi0 : (i 0).val < 8192 := (i 0).isLt
  have hi1 : (i 1).val < 64 := (i 1).isLt
  obtain ⟨t, ht⟩ : ∃ t : Fin cfg1.N, t.val = (i 0).val / 1024 :=
    ⟨⟨(i 0).val / 1024, by show (i 0).val / 1024 < 8; omega⟩, rfl⟩
  refine ⟨t, flush1_3 t, ?_⟩
  rw [mem_blk1_3]
  obtain ⟨-, -, -, -, -, -, e30, e31⟩ := idx1 t
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 64 ≤ (i 1).val ∧ (i 1).val < win1_3.index t (1 : Fin 2) * 64 + 64; omega

/-- After the second launch the result array holds the kernel's quotient, entry by entry. -/
theorem out_final (c : Dev nD) : W2 m ρ c (Proc.devRef .tc main_v1) = outArr m c :=
  (W2_arr m ρ c 3).trans
    ((dat1 (V1 m ρ) c).arrAt_eq_of_cover 3 (outArr m c) (fun t _ => flushed1_3 m ρ c t) cover1_3)

end Cert.KernelIdeal.Arrays

end
-- ==== Proof.RefValue.lean ====
/-
  The reference's result read at an index: entry (i, e) is the sum over rows j of row i's inner product with row j, over
  row i's sum of inner products, times entry (j, e).
-/
import proofs.«115789_j63376537420540_1_alg».proof.Proof.Gen.ReferenceIdeal.Read
import proofs.«115789_j63376537420540_1_alg».proof.Proof.Spec

noncomputable section

namespace Cert.ReferenceIdeal.RefValue

open Idealize.ShloMosaic Idealize.ShloMosaic.ValueIdx Cert.ReferenceIdeal Cert.ReferenceIdeal.Read Cert.RowNormalize

/-- The first product at (i, j) is the two rows' inner product. -/
theorem products_apply (a : FVec Ideal S8192x64 .f32) (i j : Fin 8192) :
    val_main_v0 (F := Ideal) a (ix2 i j) = dotE a i j := by
  rw [val_main_v0_apply]
  unfold dotE
  refine Finset.sum_congr rfl fun d _ => ?_
  have el : lidx_main_v0 (ix2 i j) d = ix2 i d := funext fun b => Fin.ext (by match b with | ⟨0, _⟩ => rfl | ⟨1, _⟩ => rfl)
  have er : ridx_main_v0 (ix2 i j) d = ix2 j d := funext fun b => Fin.ext (by match b with | ⟨0, _⟩ => rfl | ⟨1, _⟩ => rfl)
  rw [el, er]

/-- The row sums, from the initial value zero. -/
theorem rowsums_apply (a : FVec Ideal S8192x64 .f32) (i : Fin 8192) :
    val_main_v1 (F := Ideal) a (ix1 i) = rowsumE a i := by
  rw [val_main_v1_apply, val_main_cst_apply]
  unfold rowsumE
  refine congrArg₂ (· + ·) Ideal.ofBits_zero_f32 (Finset.sum_congr rfl fun j _ => ?_)
  have ei : idx_main_v1 (ix1 i) j = ix2 i j := funext fun b => Fin.ext (by match b with | ⟨0, _⟩ => rfl | ⟨1, _⟩ => rfl)
  rw [ei, products_apply]

/-- The reference's result, entry by entry. -/
theorem result_eq (a : FVec Ideal S8192x64 .f32) :
    val_main_v5 (F := Ideal) a = fun idx => outR a (idx 0) (idx 1) := by
  funext idx
  obtain ⟨i, e, rfl⟩ : ∃ (i : Fin 8192) (e : Fin 64), idx = ix2 i e := ⟨idx 0, idx 1, eq_ix2 idx⟩
  rw [val_main_v5_apply]
  show _ = outR a i e
  unfold outR
  refine Finset.sum_congr rfl fun j _ => ?_
  have el : lidx_main_v5 (ix2 i e) j = ix2 i j := funext fun b => Fin.ext (by match b with | ⟨0, _⟩ => rfl | ⟨1, _⟩ => rfl)
  have er : ridx_main_v5 (ix2 i e) j = ix2 j e := funext fun b => Fin.ext (by match b with | ⟨0, _⟩ => rfl | ⟨1, _⟩ => rfl)
  have e3 : idx_main_v2 (idx_main_v3 (ix2 i j)) = ix1 i := funext fun b => Fin.ext (by match b with | ⟨0, _⟩ => rfl)
  rw [el, er, val_main_v4_apply, products_apply, val_main_v3_apply, val_main_v2_apply, e3, rowsums_apply]
  rfl

end Cert.ReferenceIdeal.RefValue

end
-- ==== Proof.PreDecode.lean ====
/-
  What the precondition says of the input array, read at the extended reals: every entry is a real number, and no row's
  sum of inner products is zero.
-/
import proofs.«115789_j63376537420540_1_alg».proof.Pre_finite_inputs
import proofs.«115789_j63376537420540_1_alg».proof.Proof.Gen.Pre_finite_inputs
import proofs.«115789_j63376537420540_1_alg».proof.Proof.Spec
import Idealize.ShloMosaic.Lib.ReduceAll
import Idealize.ShloMosaic.Lib.Affine
import Idealize.ShloMosaic.Lib.ValueIdx
import Idealize.ShloMosaic.PureOps.Ideal.Laws

noncomputable section

namespace Cert.PreDecode

open Idealize.ShloMosaic Idealize.ShloMosaic.ValueIdx Cert.RowNormalize

open Cert.Pre_finite_inputs

/-- The scalar shape has exactly one index. -/
instance : Subsingleton Cert.Pre_finite_inputs.S_.Idx := ⟨fun _ _ => funext fun d => d.elim0⟩

/-! ## The operand indices of the inner products -/

/-- The left operand's row is the result's row. -/
theorem lhs_0 (i : S8192x8192.Idx) (q : dot_S8192x64_S8192x64_S8192x8192_1_1_0_0_n_n.contr.Idx) : (dot_S8192x64_S8192x64_S8192x8192_1_1_0_0_n_n.lhsIdx i q 0).val = (i 0).val := by
  unfold DotDims.lhsIdx
  rw [dif_neg (show ¬(0 : Fin S8192x64.rank) ∈ dot_S8192x64_S8192x64_S8192x8192_1_1_0_0_n_n.lhsBatch by decide),
    dif_pos (show (0 : Fin S8192x64.rank) ∈ dot_S8192x64_S8192x64_S8192x8192_1_1_0_0_n_n.lhsNonContracting by decide)]
  rfl

/-- The left operand's column is the contraction position. -/
theorem lhs_1 (i : S8192x8192.Idx) (q : dot_S8192x64_S8192x64_S8192x8192_1_1_0_0_n_n.contr.Idx) : (dot_S8192x64_S8192x64_S8192x8192_1_1_0_0_n_n.lhsIdx i q 1).val = (q ⟨0, by decide⟩).val :=
  dot_S8192x64_S8192x64_S8192x8192_1_1_0_0_n_n.lhsIdx_val_of_single rfl i q

/-- The right operand's row is the result's column. -/
theorem rhs_0 (i : S8192x8192.Idx) (q : dot_S8192x64_S8192x64_S8192x8192_1_1_0_0_n_n.contr.Idx) : (dot_S8192x64_S8192x64_S8192x8192_1_1_0_0_n_n.rhsIdx i q 0).val = (i 1).val := by
  unfold DotDims.rhsIdx
  rw [dif_neg (show ¬(0 : Fin S8192x64.rank) ∈ dot_S8192x64_S8192x64_S8192x8192_1_1_0_0_n_n.rhsBatch by decide),
    dif_pos (show (0 : Fin S8192x64.rank) ∈ dot_S8192x64_S8192x64_S8192x8192_1_1_0_0_n_n.rhsNonContracting by decide)]
  rfl

/-- The right operand's column is the contraction position. -/
theorem rhs_1 (i : S8192x8192.Idx) (q : dot_S8192x64_S8192x64_S8192x8192_1_1_0_0_n_n.contr.Idx) : (dot_S8192x64_S8192x64_S8192x8192_1_1_0_0_n_n.rhsIdx i q 1).val = (q ⟨0, by decide⟩).val :=
  dot_S8192x64_S8192x64_S8192x8192_1_1_0_0_n_n.rhsIdx_val_of_single rfl i q

/-! ## The precondition's two arrays read at an index -/

/-- The product array at (i, j) is the inner product of rows i and j. -/
theorem dot_read (a : FVec Ideal S8192x64 .f32) (i j : Fin 8192) :
    Host.dotGeneral dot_S8192x64_S8192x64_S8192x8192_1_1_0_0_n_n none a a (ix2 i j) = dotE a i j := by
  simp only [Host.dotGeneral]
  rw [Ideal.dotGeneral_apply, ← Equiv.sum_comp (ValueIdx.contrEquiv1 dot_S8192x64_S8192x64_S8192x8192_1_1_0_0_n_n 64 rfl rfl).symm]
  unfold dotE
  refine Finset.sum_congr rfl fun k _ => ?_
  have hk := ValueIdx.contrEquiv1_symm_val dot_S8192x64_S8192x64_S8192x8192_1_1_0_0_n_n 64 rfl rfl k
  have el : dot_S8192x64_S8192x64_S8192x8192_1_1_0_0_n_n.lhsIdx (ix2 i j) ((ValueIdx.contrEquiv1 dot_S8192x64_S8192x64_S8192x8192_1_1_0_0_n_n 64 rfl rfl).symm k) = ix2 i k := funext fun b => Fin.ext (by
    match b with
    | ⟨0, _⟩ => exact lhs_0 _ _
    | ⟨1, _⟩ => exact (lhs_1 _ _).trans hk)
  have er : dot_S8192x64_S8192x64_S8192x8192_1_1_0_0_n_n.rhsIdx (ix2 i j) ((ValueIdx.contrEquiv1 dot_S8192x64_S8192x64_S8192x8192_1_1_0_0_n_n 64 rfl rfl).symm k) = ix2 j k := funext fun b => Fin.ext (by
    match b with
    | ⟨0, _⟩ => exact rhs_0 _ _
    | ⟨1, _⟩ => exact (rhs_1 _ _).trans hk)
  rw [el, er]

/-- The sum of the product array along its second axis, from the initial value zero, is at row i the row's sum of inner
    products. -/
theorem rowsum_read (a : FVec Ideal S8192x64 .f32) (h' : S8192x8192.ReducesTo [1] S8192) (hu : 0 < S_.numel) (i : Fin 8192) :
    Host.reduceAdd (Host.dotGeneral dot_S8192x64_S8192x64_S8192x8192_1_1_0_0_n_n none a a) (constant S_ .f32 0x00000000#32) h' hu (ix1 i) = rowsumE a i := by
  have key : ∀ y0 : FVec Ideal S8192x8192 .f32,
      Host.reduceAdd y0 (constant S_ .f32 0x00000000#32) h' hu (ix1 i) = 0 + ∑ k : Fin 8192, y0 (ix2 i k) := by
    intro y0
    simp only [Host.reduceAdd, Ideal.hostReduceAdd_def]
    rw [Ideal.hostReduceAdd_single h' (by decide)]
    refine congrArg₂ (· + ·) Ideal.ofBits_zero_f32 (Finset.sum_congr rfl fun k _ => ?_)
    exact congrArg y0 (funext fun b => Fin.ext (by match b with | ⟨0, _⟩ => rfl | ⟨1, _⟩ => rfl))
  rw [key]
  unfold rowsumE
  exact congrArg (0 + ·) (Finset.sum_congr rfl fun j _ => dot_read a i j)

/-! ## Comparisons of extended reals that came out true -/

theorem lt_of_cmp_olt {x y : EReal} (h : Ideal.cmp .olt x y = 1#1) : x < y := by
  unfold Ideal.cmp at h
  by_contra hn
  simp [hn] at h

theorem ne_of_cmp_une {x y : EReal} (h : Ideal.cmp .une x y = 1#1) : x ≠ y := by
  unfold Ideal.cmp at h
  intro hn
  simp [hn] at h

/-- The word of the first comparison's right side is positive infinity. -/
theorem ofBits_inf_f32 : Ideal.ofBits .f32 0x7F800000#32 = ⊤ := by simp [Ideal.ofBits, Ideal.ieee]

/-! ## The precondition decoded -/

/-- The precondition is a conjunction of two statements about every element: the absolute value of every entry is
    below positive infinity, and every row's sum of inner products differs from zero. -/
theorem decode (a : FVec Ideal Cert.Pre_finite_inputs.S8192x64 .f32)
    (h : Cert.Pre_finite_inputs.fn (F := Ideal) a = fun _ => 1#1) :
    (∀ idx : S8192x64.Idx, max (a idx) (-(a idx)) < ⊤) ∧ ∀ i : Fin 8192, rowsumE a i ≠ 0 := by
  have h0 := congrFun h ValueIdx.ix0
  dsimp only [Cert.Pre_finite_inputs.fn] at h0
  obtain ⟨h1, h2⟩ := IntOp.andi_eq_one.1 (show IntOp.andi _ _ = 1#1 from h0)
  have e1 := Host.reduce_andi_all _ _ _ _ _ h1
  have e2 := Host.reduce_andi_all _ _ _ _ _ h2
  refine ⟨fun idx => ?_, fun i => ?_⟩
  · have e : Ideal.cmp .olt (max (a idx) (-(a idx))) (Ideal.ofBits .f32 0x7F800000#32) = 1#1 := e1 idx
    rw [ofBits_inf_f32] at e
    exact lt_of_cmp_olt e
  · have e : Ideal.cmp .une (Host.reduceAdd (Host.dotGeneral dot_S8192x64_S8192x64_S8192x8192_1_1_0_0_n_n none a a) (constant S_ .f32 0x00000000#32) _ _ (ix1 i))
        (Ideal.ofBits .f32 0x00000000#32) = 1#1 := e2 (ix1 i)
    rw [rowsum_read, Ideal.ofBits_zero_f32] at e
    exact ne_of_cmp_une e

/-- Under the precondition every entry of the array is a real number. -/
theorem entries_real (a : FVec Ideal Cert.Pre_finite_inputs.S8192x64 .f32)
    (h : Cert.Pre_finite_inputs.fn (F := Ideal) a = fun _ => 1#1) : ∀ idx, ∃ r : ℝ, a idx = (r : EReal) := by
  intro idx
  have hlt := (decode a h).1 idx
  rw [max_lt_iff] at hlt
  have h1 : a idx ≠ ⊤ := ne_of_lt hlt.1
  have h2 : a idx ≠ ⊥ := fun hb => absurd hlt.2 (by rw [hb, EReal.neg_bot]; exact lt_irrefl _)
  exact ⟨(a idx).toReal, (EReal.coe_toReal h1 h2).symm⟩

/-- Under the precondition no row's sum of inner products is zero. -/
theorem rowsum_ne_zero (a : FVec Ideal Cert.Pre_finite_inputs.S8192x64 .f32)
    (h : Cert.Pre_finite_inputs.fn (F := Ideal) a = fun _ => 1#1) : ∀ i : Fin 8192, rowsumE a i ≠ 0 :=
  (decode a h).2

end Cert.PreDecode

end
-- ==== Proof.Law.lean ====
/-
  The law that joins the two programs: on an array of real numbers whose row sums are not zero, the kernel's
  quotient of sums is the reference's sum of quotients.
-/
import proofs.«115789_j63376537420540_1_alg».proof.Proof.Spec

noncomputable section

namespace Cert.RowNormalize

open Idealize.ShloMosaic Idealize.ShloMosaic.ValueIdx

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp only [Finset.sum_empty, EReal.coe_zero]
  | insert x s hx ih => rw [Finset.sum_insert hx, Finset.sum_insert hx, EReal.coe_add, ih]

/-- Two rows' inner product, in the reals. -/
def dotR (A : SA.Idx → ℝ) (i j : Fin 8192) : ℝ := ∑ d : Fin 64, A (ix2 i d) * A (ix2 j d)

/-- A row's sum of inner products, in the reals. -/
def rowsumR (A : SA.Idx → ℝ) (i : Fin 8192) : ℝ := ∑ j : Fin 8192, dotR A i j

/-- On a real array the inner product is the coercion of the real inner product. -/
theorem dotE_coe (A : SA.Idx → ℝ) (i j : Fin 8192) :
    dotE (fun idx => (A idx : EReal)) i j = ((dotR A i j : ℝ) : EReal) := by
  unfold dotE dotR
  simp only [← EReal.coe_mul, ← coe_sum]

/-- On a real array the row sum is the coercion of the real row sum. -/
theorem rowsumE_coe (A : SA.Idx → ℝ) (i : Fin 8192) :
    rowsumE (fun idx => (A idx : EReal)) i = ((rowsumR A i : ℝ) : EReal) := by
  unfold rowsumE rowsumR
  simp only [dotE_coe, ← coe_sum, zero_add]

/-- On a real array the matrix of column products is a coercion. -/
theorem gramE_coe (A : SA.Idx → ℝ) (d e : Fin 64) :
    gramE (fun idx => (A idx : EReal)) d e = ((∑ n : Fin 8192, A (ix2 n d) * A (ix2 n e) : ℝ) : EReal) := by
  unfold gramE
  simp only [← EReal.coe_mul, ← coe_sum]

/-- On a real array the column sums are coercions. -/
theorem colsumE_coe (A : SA.Idx → ℝ) (d : Fin 64) :
    colsumE (fun idx => (A idx : EReal)) d = ((∑ n : Fin 8192, A (ix2 n d) : ℝ) : EReal) := by
  unfold colsumE
  simp only [← coe_sum]

/-- The kernel's denominator is the row sum: one double sum in two orders. -/
theorem denE_coe (A : SA.Idx → ℝ) (i : Fin 8192) :
    denE (fun idx => (A idx : EReal)) i = ((rowsumR A i : ℝ) : EReal) := by
  unfold denE
  simp only [colsumE_coe, ← EReal.coe_mul, ← coe_sum]
  congr 1
  unfold rowsumR dotR
  rw [Finset.sum_comm]
  exact Finset.sum_congr rfl fun d _ => Finset.mul_sum _ _ _

/-- The kernel's numerator is the sum over the rows of inner product times entry: one double sum in two orders. -/
theorem numE_coe (A : SA.Idx → ℝ) (i : Fin 8192) (e : Fin 64) :
    numE (fun idx => (A idx : EReal)) i e = ((∑ j : Fin 8192, dotR A i j * A (ix2 j e) : ℝ) : EReal) := by
  unfold numE
  simp only [gramE_coe, ← EReal.coe_mul, ← coe_sum]
  congr 1
  unfold dotR
  simp only [Finset.mul_sum, Finset.sum_mul]
  rw [Finset.sum_comm]
  exact Finset.sum_congr rfl fun j _ => Finset.sum_congr rfl fun d _ => by ring

/-- On an array of real numbers whose row sums are not zero the kernel's quotient of sums is the reference's sum of
    quotients. -/
theorem outK_eq_outR (a : SA.Idx → EReal) (hfin : ∀ idx, ∃ r : ℝ, a idx = (r : EReal))
    (hne : ∀ i, rowsumE a i ≠ 0) (i : Fin 8192) (e : Fin 64) : outK a i e = outR a i e := by
  choose A hA using hfin
  obtain rfl : a = fun idx => ((A idx : ℝ) : EReal) := funext hA
  -- the real row sum is not zero
  have hR : rowsumR A i ≠ 0 := by
    intro h
    apply hne i
    rw [rowsumE_coe, h, EReal.coe_zero]
  unfold outK outR
  simp only [numE_coe, denE_coe, rowsumE_coe, dotE_coe, Ideal.div_coe hR, ← EReal.coe_mul, ← coe_sum]
  congr 1
  -- in the reals: a sum times a constant is the sum of the terms times the constant
  rw [Finset.sum_mul]
  exact Finset.sum_congr rfl fun j _ => by ring

end Cert.RowNormalize

end
-- ==== Proof.lean ====
/-
  The certificate of a two-launch kernel against its reference, over the extended reals.

  The reference takes the 8192 × 8192 matrix of inner products of the rows of an 8192 × 64 array, divides every row of
  it by the row's sum, and multiplies the result into the array. The kernel never forms that matrix: its first launch
  takes the 64 × 64 matrix of inner products of the COLUMNS and the 64 column sums; its second, row by row, multiplies
  the row into the small matrix and divides by the row's inner product with the column sums. The numerators agree, and
  the denominators agree, because each is one double sum taken in two orders; and dividing a sum by a number is
  dividing its terms. Both steps are laws of the real numbers, so the claim holds where every entry is finite, and where
  no row sum is zero: at a zero row sum the reference's own quotient is undefined, and there the two programs do differ
  (the quotient `0 / 0` is taken once by the kernel and 8192 times, each then multiplied by an entry, by the reference).
  The precondition states exactly these two things of the input.

  The three frames are the generated ones (the reference's is its run with the result dropped); the idealization rewrote
  nothing, so `preserves` is `True`. For the value: the kernel's run with its result array named (the two launches'
  write-backs, Proof/KernelIdealRun.lean and Proof/KernelArrays.lean over the bodies' stored values of
  Proof/KernelPayload.lean), the reference's run read entry by entry (Proof/RefValue.lean), what the precondition says
  (Proof/PreDecode.lean), and the law between the two forms (Proof/Spec.lean, Proof/Law.lean).
-/
import proofs.«115789_j63376537420540_1_alg».proof.Defs
import proofs.«115789_j63376537420540_1_alg».proof.Proof.Gen.Kernel
import proofs.«115789_j63376537420540_1_alg».proof.Proof.Gen.Kernel.Skeleton
import proofs.«115789_j63376537420540_1_alg».proof.Proof.Gen.Kernel.Launch
import proofs.«115789_j63376537420540_1_alg».proof.Proof.Gen.Kernel.Points
import proofs.«115789_j63376537420540_1_alg».proof.Proof.Gen.Kernel.Frame
import proofs.«115789_j63376537420540_1_alg».proof.Proof.Gen.KernelIdeal
import proofs.«115789_j63376537420540_1_alg».proof.Proof.Gen.KernelIdeal.Skeleton
import proofs.«115789_j63376537420540_1_alg».proof.Proof.Gen.KernelIdeal.Launch
import proofs.«115789_j63376537420540_1_alg».proof.Proof.Gen.KernelIdeal.Points
import proofs.«115789_j63376537420540_1_alg».proof.Proof.Gen.KernelIdeal.Frame
import proofs.«115789_j63376537420540_1_alg».proof.Proof.Gen.ReferenceIdeal
import proofs.«115789_j63376537420540_1_alg».proof.Proof.Gen.ReferenceIdeal.Run
import proofs.«115789_j63376537420540_1_alg».proof.Proof.Gen.ReferenceIdeal.Read
import proofs.«115789_j63376537420540_1_alg».proof.Proof.Gen.Pre_finite_inputs
import proofs.«115789_j63376537420540_1_alg».proof.Proof.KernelIdealRun
import proofs.«115789_j63376537420540_1_alg».proof.Proof.KernelArrays
import proofs.«115789_j63376537420540_1_alg».proof.Proof.RefValue
import proofs.«115789_j63376537420540_1_alg».proof.Proof.PreDecode
import proofs.«115789_j63376537420540_1_alg».proof.Proof.Law
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the kernel's quotient of sums in their result arrays: the kernel by its two launches'
    write-backs, the reference because, on the real arrays with nonzero row sums the precondition admits, its sum of
    quotients is that quotient of sums. -/
theorem algebraic : Cert.algebraic_KernelIdeal_ReferenceIdeal := by
  intro m ρ m' ρ' hpre hagree
  refine ⟨fun c => Cert.KernelIdeal.Arrays.outArr m c, ?_, ?_⟩
  · exact (θ_run Cert.KernelIdeal.defs _ _).mono
      (fun r h c => ⟨(h c).1.trans (Cert.KernelIdeal.Arrays.out_final m ρ c), (h c).2⟩)
      (Cert.KernelIdeal.GenRun.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v5_eq, Cert.ReferenceIdeal.RefValue.result_eq, hagree c]
    funext idx
    exact (Cert.RowNormalize.outK_eq_outR _ (Cert.PreDecode.entries_real _ (hpre c))
      (Cert.PreDecode.rowsum_ne_zero _ (hpre c)) (idx 0) (idx 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
